-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8192x128 .f32) (main_arg1 : FVec F S128x128 .f32) (main_arg2 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8192x128 : Shape := ⟨2, ![8192, 128]⟩
abbrev S128x128 : Shape := ⟨2, ![128, 128]⟩
abbrev S8192x128x128 : Shape := ⟨3, ![8192, 128, 128]⟩
abbrev S128x128x128 : Shape := ⟨3, ![128, 128, 128]⟩
abbrev S128x128x1 : Shape := ⟨3, ![128, 128, 1]⟩
abbrev S1x128x128 : Shape := ⟨3, ![1, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S8192x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128x128, .f32⟩
  | .local _ .vmem, ⟨5, _⟩ => ⟨S128x128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  inb_S128x128x128_S128x128x128_0_0_0 : ∀ a, (![0, 0, 0] : Fin 3 → Nat) a + S128x128x128.size a ≤ S128x128x128.size a
  h_S128x128x128 : 0 < S128x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x128.size a ≤ S8192x128x128.size a
  hwx0_3 : ∀ i : grid0.Coords, EltTy.bits .f32 = 32 ∨ (Rect.block (s := S8192x128x128) S128x128x128.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x128 : Shape := ⟨2, ![128, 128]⟩
abbrev S8192x128x1 : Shape := ⟨3, ![8192, 128, 1]⟩
abbrev S1x128x128 : Shape := ⟨3, ![1, 128, 128]⟩
abbrev S8192x128x128 : Shape := ⟨3, ![8192, 128, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S8192x128x1, .f32⟩
  | .hbm, ⟨4, _⟩ => ⟨S1x128x128, .f32⟩
  | .hbm, ⟨5, _⟩ => ⟨S8192x128x128, .f32⟩
  | .hbm, ⟨6, _⟩ => ⟨S8192x128x128, .f32⟩
  | .hbm, ⟨7, _⟩ => ⟨S8192x128x128, .f32⟩
  | .hbm, ⟨8, _⟩ => ⟨S1x128x128, .f32⟩
  | .hbm, ⟨9, _⟩ => ⟨S8192x128x128, .f32⟩
  | .hbm, ⟨10, _⟩ => ⟨S8192x128x128, .f32⟩
  | .hbm, ⟨11, _⟩ => ⟨S_, .f32⟩
  | .hbm, ⟨12, _⟩ => ⟨S8192x128x128, .f32⟩
  | .hbm, ⟨13, _⟩ => ⟨S8192x128x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S8192x128_S8192x128x1_0_1 : S8192x128.BroadcastsInDim S8192x128x1 (![0, 1] : Fin 2 → Fin S8192x128x1.rank)
  bcast_S128x128_S1x128x128_1_2 : S128x128.BroadcastsInDim S1x128x128 (![1, 2] : Fin 2 → Fin S1x128x128.rank)
  bcast_S8192x128x1_S8192x128x128_0_1_2 : S8192x128x1.BroadcastsInDim S8192x128x128 (![0, 1, 2] : Fin 3 → Fin S8192x128x128.rank)
  bcast_S1x128x128_S8192x128x128_0_1_2 : S1x128x128.BroadcastsInDim S8192x128x128 (![0, 1, 2] : Fin 3 → Fin S8192x128x128.rank)
  bcast_S_S8192x128x128 : S_.BroadcastsInDim S8192x128x128 (![] : Fin 0 → Fin S8192x128x128.rank)

variable [Facts₀]

class Facts : Prop extends Facts₀ where

variable [Facts]
-- ==== Proof.FeatureDense.lean ====
/-
  The function both programs compute.

  The input `x` has a row per sample and a column per scalar feature (8192 × 128). Feature `k` has a dense layer of its
  own, from one number to 128 numbers: a weight row `W[k, ·]` and a bias row `b[k, ·]`. The result stacks, for every
  sample `r` and every feature `k`, the 128 activations clipped below at zero:

      out[r, k, d] = max (x[r, k] · W[k, d] + b[k, d]) 0.

  Nothing is summed and nothing is regrouped: entry (r, k, d) reads ONE entry of each argument. So the function is written
  over any float instance, with that instance's own product, sum and maximum, zero being the number the all-zero word
  encodes; no law of the extended reals, and no finiteness of the inputs, is needed to compare two programs that both
  compute it entry by entry.
-/
import Idealize.ShloMosaic.PureOps
import Idealize.ShloMosaic.Lib.ValueIdx

noncomputable section

namespace Cert.FeatureDense

open Idealize.ShloMosaic Idealize.ShloMosaic.ValueIdx

variable {F : FTy → Type} [FloatOps F]

/-- Samples by features. -/
abbrev Samples : Shape := ⟨2, ![8192, 128]⟩
/-- Features by activations: the shape of the stacked weight rows, and of the stacked bias rows. -/
abbrev Rows : Shape := ⟨2, ![128, 128]⟩
/-- Samples by features by activations. -/
abbrev Acts : Shape := ⟨3, ![8192, 128, 128]⟩

/-- Where entry `i` of the result reads the input: at its sample and its feature. -/
abbrev atSample (i : Acts.Idx) : Samples.Idx := ix2 (n0 := 8192) (n1 := 128) (i 0) (i 1)
/-- Where entry `i` of the result reads the weights and the biases: at its feature and its activation. -/
abbrev atRow (i : Acts.Idx) : Rows.Idx := ix2 (n0 := 128) (n1 := 128) (i 1) (i 2)

/-- The per-feature dense layers followed by the clip at zero, entry by entry. -/
def layer (x : Samples.Idx → F .f32) (w b : Rows.Idx → F .f32) : Acts.Idx → F .f32 := fun i =>
  FloatOps.maximumf (FloatOps.addf (FloatOps.mulf (x (atSample i)) (w (atRow i))) (b (atRow i)))
    (FloatOps.ofBits .f32 0x00000000#32)

/-- One entry of the result. -/
theorem layer_apply (x : Samples.Idx → F .f32) (w b : Rows.Idx → F .f32) (i : Acts.Idx) :
    layer x w b i = FloatOps.maximumf (FloatOps.addf (FloatOps.mulf (x (atSample i)) (w (atRow i))) (b (atRow i)))
      (FloatOps.ofBits .f32 0x00000000#32) := rfl

end Cert.FeatureDense

end
-- ==== Proof.KernelLayer.lean ====
/-
  The kernel's result array is the per-feature dense layers of its three argument arrays.

  The grid has 64 points. Point `t` stages rows 128·t … 128·t + 127 of the input (the samples of its tile), the whole
  weight array and the whole bias array, and writes back block `t` of the result: the activations of those 128 samples.
  Inside the block, entry (r, k, d) is max (xtile[r, k] · W[k, d] + b[k, d]) 0; the input tile's entry (r, k) is the
  input's entry (128·t + r, k), and the result block's entry (r, k, d) is the result's entry (128·t + r, k, d). So what
  point `t` writes back is block `t` of the specification read off the whole arrays. Every sample row lies in exactly
  one tile (row `s` in tile `s / 128`), so the 64 blocks cover the result and the array ends holding the specification.
-/
import proofs.«163170_j65764539236820_1_alg».proof.Proof.Gen.KernelIdeal.Value
import proofs.«163170_j65764539236820_1_alg».proof.Proof.FeatureDense
import Idealize.ShloMosaic.Lib.Pipeline.Value

noncomputable section

namespace Cert.KernelIdeal.Hand

open Cert.KernelIdeal Cert.KernelIdeal.Gen Cert.KernelIdeal.Value Cert.FeatureDense
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## One block -/

/-- What the body leaves in the result's staging buffer, entry by entry, from the three staged blocks: the input tile is
    read at the entry's row and feature, the weights and the biases at its feature and activation. -/
theorem block_apply (x0 x1 x2 : Vec F S128x128 .f32) (y : S128x128x128.Idx) :
    out0_3 x0 x1 x2 y
      = FloatOps.maximumf (FloatOps.addf (FloatOps.mulf (x0 (ix2 (n0 := 128) (n1 := 128) (y 0) (y 1)))
          (x1 (ix2 (n0 := 128) (n1 := 128) (y 1) (y 2)))) (x2 (ix2 (n0 := 128) (n1 := 128) (y 1) (y 2))))
          (FloatOps.ofBits .f32 0x00000000#32) := by
  unfold out0_3
  rw [canon3_eq]
  simp only [View.ld_unit_zero (S := S128x128) zero_offsets]
  show FloatOps.maximumf (FloatOps.addf (FloatOps.mulf (x0 (ix3_0 y)) (x1 (ix3_1 y))) (x2 (ix3_2 y)))
      (Scalar.ofBits .f32 0x00000000#32) = _
  rw [show ix3_0 y = ix2 (n0 := 128) (n1 := 128) (y 0) (y 1) from
        funext fun a => Fin.ext (by match a with | ⟨0, _⟩ => rfl | ⟨1, _⟩ => rfl),
    show ix3_1 y = ix2 (n0 := 128) (n1 := 128) (y 1) (y 2) from
        funext fun a => Fin.ext (by match a with | ⟨0, _⟩ => rfl | ⟨1, _⟩ => rfl),
    show ix3_2 y = ix2 (n0 := 128) (n1 := 128) (y 1) (y 2) from
        funext fun a => Fin.ext (by match a with | ⟨0, _⟩ => rfl | ⟨1, _⟩ => rfl)]

/-! ## The tiles -/

/-- The printed index maps over the 64 grid points: the input's and the result's tiles move with the point along the
    sample axis, every other block index is zero. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input's tile at point `t` is rows 128·t … 128·t + 127 of the input. -/
theorem sample_tile (c : Dev nD) (t : Fin cfg0.N) (y : S128x128.Idx) (k : S8192x128.Idx)
    (hk0 : (k 0).val = t.val * 128 + (y 0).val) (hk1 : (k 1).val = (y 1).val) :
    (iblk m c 0 t : Vec F S128x128 .f32) y = (V m c main_arg0 : S8192x128.Idx → Elt F .f32) k := by
  obtain ⟨e0, e1, -⟩ := tile_index t
  unfold iblk
  rw [View.read_apply]
  show V m c main_arg0 _ = V m c main_arg0 _
  congr 1
  funext a
  apply Fin.ext
  match a with
  | ⟨0, _⟩ => show win0_0.index t (0 : Fin 2) * 128 + 1 * (y 0).val = (k 0).val; rw [e0, hk0]; omega
  | ⟨1, _⟩ => show win0_0.index t (1 : Fin 2) * 128 + 1 * (y 1).val = (k 1).val; rw [e1, hk1]; omega

/-- The weights' block at every point is the whole weight array. -/
theorem weight_tile (c : Dev nD) (t : Fin cfg0.N) (y : S128x128.Idx) (k : S128x128.Idx)
    (hk0 : (k 0).val = (y 0).val) (hk1 : (k 1).val = (y 1).val) :
    (iblk m c 1 t : Vec F S128x128 .f32) y = (V m c main_arg1 : S128x128.Idx → Elt F .f32) k := by
  obtain ⟨-, -, e2, e3, -⟩ := tile_index t
  unfold iblk
  rw [View.read_apply]
  show V m c main_arg1 _ = V m c main_arg1 _
  congr 1
  funext a
  apply Fin.ext
  match a with
  | ⟨0, _⟩ => show win0_1.index t (0 : Fin 2) * 128 + 1 * (y 0).val = (k 0).val; rw [e2, hk0]; omega
  | ⟨1, _⟩ => show win0_1.index t (1 : Fin 2) * 128 + 1 * (y 1).val = (k 1).val; rw [e3, hk1]; omega

/-- The biases' block at every point is the whole bias array. -/
theorem bias_tile (c : Dev nD) (t : Fin cfg0.N) (y : S128x128.Idx) (k : S128x128.Idx)
    (hk0 : (k 0).val = (y 0).val) (hk1 : (k 1).val = (y 1).val) :
    (iblk m c 2 t : Vec F S128x128 .f32) y = (V m c main_arg2 : S128x128.Idx → Elt F .f32) k := by
  obtain ⟨-, -, -, -, e4, e5, -⟩ := tile_index t
  unfold iblk
  rw [View.read_apply]
  show V m c main_arg2 _ = V m c main_arg2 _
  congr 1
  funext a
  apply Fin.ext
  match a with
  | ⟨0, _⟩ => show win0_2.index t (0 : Fin 2) * 128 + 1 * (y 0).val = (k 0).val; rw [e4, hk0]; omega
  | ⟨1, _⟩ => show win0_2.index t (1 : Fin 2) * 128 + 1 * (y 1).val = (k 1).val; rw [e5, hk1]; omega

/-! ## What a point writes back, and the whole array -/

/-- The specification read off the arrays as the region finds them. -/
abbrev spec (c : Dev nD) : S8192x128x128.Idx → Elt F .f32 :=
  layer (V m c main_arg0 : S8192x128.Idx → Elt F .f32) (V m c main_arg1 : S128x128.Idx → Elt F .f32)
    (V m c main_arg2 : S128x128.Idx → Elt F .f32)

/-- Point `t` writes back block `t` of the specification. -/
theorem flushed_eq (c : Dev nD) (t : Fin cfg0.N) :
    (dats m 0 c).flushed 3 t = ((cfg0.win 3).blk t).view.read (Elt F) (spec m c) := by
  rw [flushed3]
  obtain ⟨-, -, -, -, -, -, e6, e7, e8⟩ := tile_index t
  funext j
  rw [View.read_apply]
  refine (block_apply (iblk m c 0 t) (iblk m c 1 t) (iblk m c 2 t) ((cfg0.win 3).xinj (grid0.coords t) j)).trans ?_
  have hj0 : (j 0).val < 128 := (j 0).isLt
  have hj1 : (j 1).val < 128 := (j 1).isLt
  have hj2 : (j 2).val < 128 := (j 2).isLt
  have p0 : ((((cfg0.win 3).blk t).view.emb j) 0).val = t.val * 128 + (j 0).val := by
    show win0_3.index t (0 : Fin 3) * 128 + 1 * (j 0).val = _; rw [e6]; omega
  have p1 : ((((cfg0.win 3).blk t).view.emb j) 1).val = (j 1).val := by
    show win0_3.index t (1 : Fin 3) * 128 + 1 * (j 1).val = _; rw [e7]; omega
  have p2 : ((((cfg0.win 3).blk t).view.emb j) 2).val = (j 2).val := by
    show win0_3.index t (2 : Fin 3) * 128 + 1 * (j 2).val = _; rw [e8]; omega
  exact congrArg₂ FloatOps.maximumf
    (congrArg₂ FloatOps.addf
      (congrArg₂ FloatOps.mulf
        (sample_tile m c t _ (atSample (((cfg0.win 3).blk t).view.emb j)) p0 p1)
        (weight_tile m c t _ (atRow (((cfg0.win 3).blk t).view.emb j)) p1 p2))
      (bias_tile m c t _ (atRow (((cfg0.win 3).blk t).view.emb j)) p1 p2))
    rfl

/-- An entry of the result is in point `t`'s block iff each coordinate is in the block's range on its axis. -/
theorem mem_block (t : Fin cfg0.N) (i : S8192x128x128.Idx) :
    i ∈ ((cfg0.win 3).blk t).view.set ↔ ∀ a : Fin 3, win0_3.index t a * S128x128x128.size a ≤ (i a).val
      ∧ (i a).val < win0_3.index t a * S128x128x128.size a + S128x128x128.size a := by
  show i ∈ ((View.whole main_v0).slice (win0_3.rect t)).set ↔ _
  rw [View.set_slice_whole, Rect.mem_set_unit]
  exact Iff.rfl

/-- Every entry of the result is written back by the point of its sample's tile. -/
theorem covered (i : S8192x128x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hi2 : (i 2).val < 128 := (i 2).isLt
  have hN : cfg0.N = 64 := N_0
  obtain ⟨t, ht⟩ : ∃ t : Fin cfg0.N, t.val = (i 0).val / 128 := ⟨⟨(i 0).val / 128, by rw [hN]; omega⟩, rfl⟩
  obtain ⟨-, -, -, -, -, -, e6, e7, e8⟩ := tile_index t
  refine ⟨t, flush0_3 t, ?_⟩
  rw [mem_block]
  intro a
  match a with
  | ⟨0, _⟩ =>
    show win0_3.index t (0 : Fin 3) * 128 ≤ (i 0).val ∧ (i 0).val < win0_3.index t (0 : Fin 3) * 128 + 128
    rw [e6, ht]; omega
  | ⟨1, _⟩ =>
    show win0_3.index t (1 : Fin 3) * 128 ≤ (i 1).val ∧ (i 1).val < win0_3.index t (1 : Fin 3) * 128 + 128
    rw [e7]; omega
  | ⟨2, _⟩ =>
    show win0_3.index t (2 : Fin 3) * 128 ≤ (i 2).val ∧ (i 2).val < win0_3.index t (2 : Fin 3) * 128 + 128
    rw [e8]; omega

/-- So after the run the result array holds the specification. -/
theorem final (c : Dev nD) : (dats m 0 c).arrAt 3 cfg0.N = spec m c :=
  (dats m 0 c).arrAt_eq_of_cover 3 (spec m c) (fun t _ => flushed_eq m c t) covered

/-- The run, read: the result array at the specification of the argument arrays, the arguments unchanged. -/
theorem run : θ_run defs (onTc (τ := τ) (main (F := F))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.ReferenceLayer.lean ====
/-
  The reference computes the per-feature dense layers entry by entry.

  It broadcasts `x` along a new last axis, `W` and `b` along a new first axis, multiplies, adds and takes the maximum
  with a broadcast zero. Read at an entry (r, k, d) of the result, each broadcast keeps the coordinates of the axes its
  operand has and forgets the others: the input is read at (r, k), the weights and the biases at (k, d). What is left is
  the product, the sum and the maximum of those three numbers and zero, which is the specification's entry.
-/
import proofs.«163170_j65764539236820_1_alg».proof.Proof.Gen.ReferenceIdeal.Read
import proofs.«163170_j65764539236820_1_alg».proof.Proof.FeatureDense

noncomputable section

namespace Cert.ReferenceIdeal.Hand

open Cert.ReferenceIdeal Cert.ReferenceIdeal.Read Cert.FeatureDense
open Idealize.ShloMosaic Idealize.ShloMosaic.ValueIdx

variable {F : FTy → Type} [FloatOps F]

/-- Through its two broadcasts the input is read at the entry's sample and feature. -/
theorem sample_idx (i : S8192x128x128.Idx) : idx_main_v0 (idx_main_v2 i) = atSample i :=
  funext fun a => Fin.ext (by match a with | ⟨0, _⟩ => rfl | ⟨1, _⟩ => rfl)

/-- Through their two broadcasts the weights are read at the entry's feature and activation … -/
theorem weight_idx (i : S8192x128x128.Idx) : idx_main_v1 (idx_main_v3 i) = atRow i :=
  funext fun a => Fin.ext (by match a with | ⟨0, _⟩ => rfl | ⟨1, _⟩ => rfl)

/-- … and so are the biases. -/
theorem bias_idx (i : S8192x128x128.Idx) : idx_main_v5 (idx_main_v6 i) = atRow i :=
  funext fun a => Fin.ext (by match a with | ⟨0, _⟩ => rfl | ⟨1, _⟩ => rfl)

/-- The reference's last stage is the specification, at any float instance. -/
theorem reference_eq (x : Samples.Idx → F .f32) (w b : Rows.Idx → F .f32) :
    val_main_v8 (F := F) x w b = layer x w b := by
  funext i
  rw [val_main_v8_apply, val_main_v7_apply, val_main_v4_apply, val_main_v2_apply, val_main_v0_apply,
    val_main_v3_apply, val_main_v1_apply, val_main_v6_apply, val_main_v5_apply, val_main_call0_v0_apply,
    val_main_call0_cst_apply, sample_idx, weight_idx, bias_idx]
  rfl

end Cert.ReferenceIdeal.Hand

end
-- ==== Proof.lean ====
/-
  The certificate of the per-feature dense layer: the kernel against `relu(x[:, :, None] * W[None] + b[None])`.

  Both programs compute, entry by entry, out[r, k, d] = max (x[r, k] · W[k, d] + b[k, d]) 0 (Proof/FeatureDense.lean).
  The kernel does it tile by tile over the samples, 64 tiles of 128 rows, with the weights and biases held whole; its
  result array ends holding that function of its arguments because every tile's block is the function's block and the
  blocks cover the array (Proof/KernelLayer.lean, over the generated value leg). The reference does it in one sweep of
  whole-array broadcasts; read at an entry its broadcasts pick the same three numbers (Proof/ReferenceLayer.lean, over the
  generated run and its read-at-an-index lemmas). The two sides apply the same product, sum and maximum to the same
  numbers in the same order, so they agree at the ideal instance with no algebra and without using that the inputs are
  finite. The frames are the generated ones (the reference's is its run with the result dropped), and the idealization
  rewrote nothing, so there is nothing to preserve.
-/
import proofs.«163170_j65764539236820_1_alg».proof.Defs
import proofs.«163170_j65764539236820_1_alg».proof.Proof.Gen.Kernel
import proofs.«163170_j65764539236820_1_alg».proof.Proof.Gen.Kernel.Skeleton
import proofs.«163170_j65764539236820_1_alg».proof.Proof.Gen.Kernel.Launch
import proofs.«163170_j65764539236820_1_alg».proof.Proof.Gen.Kernel.Points
import proofs.«163170_j65764539236820_1_alg».proof.Proof.Gen.Kernel.Frame
import proofs.«163170_j65764539236820_1_alg».proof.Proof.Gen.KernelIdeal
import proofs.«163170_j65764539236820_1_alg».proof.Proof.Gen.KernelIdeal.Skeleton
import proofs.«163170_j65764539236820_1_alg».proof.Proof.Gen.KernelIdeal.Launch
import proofs.«163170_j65764539236820_1_alg».proof.Proof.Gen.KernelIdeal.Points
import proofs.«163170_j65764539236820_1_alg».proof.Proof.Gen.KernelIdeal.Frame
import proofs.«163170_j65764539236820_1_alg».proof.Proof.Gen.ReferenceIdeal
import proofs.«163170_j65764539236820_1_alg».proof.Proof.Gen.Pre_finite_inputs
import proofs.«163170_j65764539236820_1_alg».proof.Proof.Gen.KernelIdeal.Value
import proofs.«163170_j65764539236820_1_alg».proof.Proof.Gen.ReferenceIdeal.Run
import proofs.«163170_j65764539236820_1_alg».proof.Proof.Gen.ReferenceIdeal.Read
import proofs.«163170_j65764539236820_1_alg».proof.Proof.FeatureDense
import proofs.«163170_j65764539236820_1_alg».proof.Proof.KernelLayer
import proofs.«163170_j65764539236820_1_alg».proof.Proof.ReferenceLayer
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's both end at the
    per-feature dense layers of those arguments. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v8_eq]
  exact Cert.ReferenceIdeal.Hand.reference_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
